-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128 : Shape := ⟨1, ![128]⟩
abbrev S100000x128 : Shape := ⟨2, ![100000, 128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : FVec F S128 .f32) (main_arg1 : FVec F S100000x128 .f32) : IVec S_ 1 :=
  let main_v0 : FVec F S128 .f32 := Host.absf main_arg0
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  main_v8
-- ==== Kernel.lean ====
abbrev S128 : Shape := ⟨1, ![128]⟩
abbrev S100000x128 : Shape := ⟨2, ![100000, 128]⟩
abbrev S1x128 : Shape := ⟨2, ![1, 128]⟩
abbrev S1x1 : Shape := ⟨2, ![1, 1]⟩
abbrev S2000x128 : Shape := ⟨2, ![2000, 128]⟩
abbrev S2000 : Shape := ⟨1, ![2000]⟩
abbrev S1x2000 : Shape := ⟨2, ![1, 2000]⟩
abbrev S1 : Shape := ⟨1, ![1]⟩
abbrev S_ : Shape := ⟨0, ![]⟩

abbrev nBuf : Space → Nat
  | .hbm => 5
  | .vmem => 4
  | .smem => 0
  | _ => 0

abbrev bufTy : (tb : Table) → Fin (tcTables nBuf tb) → BufTy
  | .hbm, ⟨0, _⟩ => ⟨S128, .f32⟩
  | .hbm, ⟨1, _⟩ => ⟨S100000x128, .f32⟩
  | .hbm, ⟨2, _⟩ => ⟨S1x128, .f32⟩
  | .hbm, ⟨3, _⟩ => ⟨S1x1, .f32⟩
  | .hbm, ⟨4, _⟩ => ⟨S_, .f32⟩
  | .local _ .vmem, ⟨0, _⟩ => ⟨S1x128, .f32⟩
  | .local _ .vmem, ⟨1, _⟩ => ⟨S2000x128, .f32⟩
  | .local _ .vmem, ⟨2, _⟩ => ⟨S2000x128, .f32⟩
  | .local _ .vmem, ⟨3, _⟩ => ⟨S1x1, .f32⟩
  | _, _ => ⟨S128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_4 : BitVec 32 := 0#32
  let v14 : BitVec 1 := Scalar.cmpi .ne v13 c0_i32_4
  v14

def k0_cond2 (i : grid0.Coords) : BitVec 1 :=
  let arg0 : BitVec 32 := BitVec.ofNat 32 (i 0).val
  let c0_i32_5 : BitVec 32 := 0#32
  let v15 : BitVec 1 := Scalar.cmpi .sgt arg0 c0_i32_5
  let v16 : BitVec 32 := Scalar.extui v15
  let c0_i32_6 : BitVec 32 := 0#32
  let v17 : BitVec 1 := Scalar.cmpi .ne v16 c0_i32_6
  v17

def k0_cond3 (i : grid0.Coords) : BitVec 1 :=
  let arg0 : BitVec 32 := BitVec.ofNat 32 (i 0).val
  let c49_i32 : BitVec 32 := 49#32
  let v18 : BitVec 1 := Scalar.cmpi .eq arg0 c49_i32
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S1x2000 : S2000.ShapeCasts S1x2000
  reduces_S1x2000_S1 : S1x2000.Reduces [1] S1
  shapeCasts_S1_S1x1 : S1.ShapeCasts S1x1
  inpos_S1x1_p0_0 : ∀ a, (![0, 0] : Fin 2 → Nat) a < S1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x128.size a ≤ S1x128.size a
  hwx0_0 : ∀ i : grid0.Coords, EltTy.bits .f32 = 32 ∨ (Rect.block (s := S1x128) S1x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S1x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S128 : Shape := ⟨1, ![128]⟩
abbrev S100000x128 : Shape := ⟨2, ![100000, 128]⟩
abbrev S1x128 : Shape := ⟨2, ![1, 128]⟩
abbrev S_ : Shape := ⟨0, ![]⟩
abbrev S100000 : Shape := ⟨1, ![100000]⟩

abbrev nBuf : Space → Nat
  | .hbm => 11
  | .vmem => 0
  | .smem => 0
  | _ => 0

abbrev bufTy : (tb : Table) → Fin (tcTables nBuf tb) → BufTy
  | .hbm, ⟨0, _⟩ => ⟨S128, .f32⟩
  | .hbm, ⟨1, _⟩ => ⟨S100000x128, .f32⟩
  | .hbm, ⟨2, _⟩ => ⟨S1x128, .f32⟩
  | .hbm, ⟨3, _⟩ => ⟨S100000x128, .f32⟩
  | .hbm, ⟨4, _⟩ => ⟨S100000x128, .f32⟩
  | .hbm, ⟨5, _⟩ => ⟨S100000x128, .f32⟩
  | .hbm, ⟨6, _⟩ => ⟨S_, .f32⟩
  | .hbm, ⟨7, _⟩ => ⟨S100000, .f32⟩
  | .hbm, ⟨8, _⟩ => ⟨S100000, .f32⟩
  | .hbm, ⟨9, _⟩ => ⟨S_, .f32⟩
  | .hbm, ⟨10, _⟩ => ⟨S_, .f32⟩
  | _, _ => ⟨S128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  reducesTo_S100000_S_d0 : S100000.ReducesTo [0] S_

variable [Facts₀]

class Facts : Prop extends Facts₀ where

variable [Facts]
-- ==== Proof.KernelPoint.lean ====
import proofs.«179066_g23733989277861_cont_8to1_329_4_alg».proof.Proof.Gen.Kernel.Frame
import proofs.«179066_g23733989277861_cont_8to1_329_4_alg».proof.Proof.Gen.Kernel.Skeleton
import Idealize.ShloMosaic.Lib.Pipeline.Value

set_option maxRecDepth 16384

noncomputable section

namespace Cert.Kernel.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! The kernel body at ONE grid point, in each of the three ways its conditionals can go, with the contents of
    the one-element output buffer NAMED.  The body first computes, from the corpus block `x1` (2000 rows) and the
    query row `x0`, the least squared distance of a row of the block to the query (`k0_pay1 x1 x0`).  Then:
    * at the first point it stores that number;
    * at a later point it stores the smaller of that number and what the buffer held (`k0_pay2 x1 x0 xo`);
    * at the last point it then reads the buffer again and stores the square root of what it reads
      (`k0_pay3 (k0_pay2 x1 x0 xo)`).
    Every store covers the whole buffer, so what the buffer holds afterwards is the last stored value. -/

/-- The three conditions of the body, at grid coordinates `i`. -/
abbrev isFirst (i : grid0.Coords) : Prop := k0_cond1 i = 1#1
abbrev isLater (i : grid0.Coords) : Prop := k0_cond2 i = 1#1
abbrev isLast (i : grid0.Coords) : Prop := k0_cond3 i = 1#1

/-- They hold at point 0 only, from point 1 on, and at point 49 only. -/
theorem isFirst_iff : ∀ t : Fin cfg0.N, isFirst (grid0.coords t) ↔ t.val = 0 :=
  (by decide +kernel : ∀ t : Fin grid0.N, isFirst (grid0.coords t) ↔ t.val = 0)
theorem isLater_iff : ∀ t : Fin cfg0.N, isLater (grid0.coords t) ↔ 1 ≤ t.val :=
  (by decide +kernel : ∀ t : Fin grid0.N, isLater (grid0.coords t) ↔ 1 ≤ t.val)
theorem isLast_iff : ∀ t : Fin cfg0.N, isLast (grid0.coords t) ↔ t.val = 49 :=
  (by decide +kernel : ∀ t : Fin grid0.N, isLast (grid0.coords t) ↔ t.val = 49)

/-- The offsets of every load and store of the body are zero: each goes through its buffer's whole rectangle. -/
theorem offsets_zero : (![0, 0] : Fin 2 → Nat) = fun _ => 0 := funext fun a => by fin_cases a <;> rfl

set_option maxHeartbeats 1000000 in
/-- THE FIRST POINT.  Only the first conditional is taken: the buffer, whatever it held, ends at the block's least
    squared distance. -/
theorem point_first (c : Dev nD) (i : grid0.Coords) (arg1 : Memref sig .tc .vmem S1x128 .f32) (harg1 : arg1.IsWhole) (arg2 : Memref sig .tc .vmem S2000x128 .f32) (harg2 : arg2.IsWhole) (arg3 : Memref sig .tc .vmem S1x1 .f32) (harg3 : arg3.IsWhole) (hc0 : isFirst i) (hc1 : ¬isLater i) (hc2 : ¬isLast i)
    (x0 : Vec F S1x128 .f32) (x1 : Vec F S2000x128 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ owns (c : Thread nD τ) arg3 fullShare (k0_pay1 x1 x0)) -∗ K ⟨⟩))
          ⊢ wp frame (wpE (defs₀ (F := F)) Variants.none c none) E (cc0__body i arg1 harg1 arg2 harg2 arg3 harg3) K := by
    intro E K
    simp only [cc0__body_eq_skeleton]; unfold cc0__body_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_eq_canon _ _ _ (fun y => ⟨_, List.mem_cons_self, View.mem_set_unit_zero offsets_zero inb_S1x1_S1x1_0_0 y⟩),
      View.canon_cons_unit_zero offsets_zero]
    simp only [View.readAt_eq_ld, harg1.read_unread, harg2.read_unread,
      View.ld_unit_zero (S := S1x128) offsets_zero, View.ld_unit_zero (S := S2000x128) offsets_zero]

set_option maxHeartbeats 1000000 in
/-- A MIDDLE POINT.  Only the second conditional is taken: the buffer, holding `xo`, ends at the smaller of `xo` and the
    block's least squared distance. -/
theorem point_middle (c : Dev nD) (i : grid0.Coords) (arg1 : Memref sig .tc .vmem S1x128 .f32) (harg1 : arg1.IsWhole) (arg2 : Memref sig .tc .vmem S2000x128 .f32) (harg2 : arg2.IsWhole) (arg3 : Memref sig .tc .vmem S1x1 .f32) (harg3 : arg3.IsWhole) (hc0 : ¬isFirst i) (hc1 : isLater i) (hc2 : ¬isLast i)
    (x0 : Vec F S1x128 .f32) (x1 : Vec F S2000x128 .f32) (xo : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1 ∗ owns (c : Thread nD τ) arg3 fullShare (k0_pay2 x1 x0 xo)) -∗ K ⟨⟩))
          ⊢ wp frame (wpE (defs₀ (F := F)) Variants.none c none) E (cc0__body i arg1 harg1 arg2 harg2 arg3 harg3) K := by
    intro E K
    simp only [cc0__body_eq_skeleton]; unfold cc0__body_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    sl_unfold_words
    rw [View.read_writes_eq_canon _ _ _ (fun y => ⟨_, List.mem_cons_self, View.mem_set_unit_zero offsets_zero inb_S1x1_S1x1_0_0 y⟩),
      View.canon_cons_unit_zero offsets_zero]
    simp only [View.readAt_eq_ld, harg1.read_unread, harg2.read_unread, harg3.read_unread,
      View.ld_unit_zero (S := S1x128) offsets_zero, View.ld_unit_zero (S := S2000x128) offsets_zero,
      View.ld_unit_zero (S := S1x1) offsets_zero]

set_option maxHeartbeats 1000000 in
/-- THE LAST POINT.  The second and the third conditionals are taken: the buffer, holding `xo`, first takes the smaller of
    `xo` and the block's least squared distance, and is then replaced by the square root of what it holds. -/
theorem point_last (c : Dev nD) (i : grid0.Coords) (arg1 : Memref sig .tc .vmem S1x128 .f32) (harg1 : arg1.IsWhole) (arg2 : Memref sig .tc .vmem S2000x128 .f32) (harg2 : arg2.IsWhole) (arg3 : Memref sig .tc .vmem S1x1 .f32) (harg3 : arg3.IsWhole) (hc0 : ¬isFirst i) (hc1 : isLater i) (hc2 : isLast i)
    (x0 : Vec F S1x128 .f32) (x1 : Vec F S2000x128 .f32) (xo : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1 ∗ owns (c : Thread nD τ) arg3 fullShare (k0_pay3 (k0_pay2 x1 x0 xo))) -∗ K ⟨⟩))
          ⊢ wp frame (wpE (defs₀ (F := F)) Variants.none c none) E (cc0__body i arg1 harg1 arg2 harg2 arg3 harg3) K := by
    intro E K
    simp only [cc0__body_eq_skeleton]; unfold cc0__body_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    sl_unfold_words
    rw [View.read_writes_eq_canon _ _ _ (fun y => ⟨_, List.mem_cons_self, View.mem_set_unit_zero offsets_zero inb_S1x1_S1x1_0_0 y⟩),
      View.canon_cons_unit_zero offsets_zero]
    simp only [View.readAt_eq_ld, harg1.read_unread, harg2.read_unread, harg3.read_unread,
      View.ld_unit_zero (S := S1x128) offsets_zero, View.ld_unit_zero (S := S2000x128) offsets_zero,
      View.ld_unit_zero (S := S1x1) offsets_zero, View.readCov_unit_zero (S := S1x1) _ offsets_zero]

end Cert.Kernel.Point

end
-- ==== Proof.KernelCarry.lean ====
import proofs.«179066_g23733989277861_cont_8to1_329_4_alg».proof.Proof.KernelPoint

set_option maxRecDepth 16384

noncomputable section

namespace Cert.Kernel.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Cert.Kernel.Point

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What the one-element output buffer holds from point to point, and the run of the whole program over it.
    The buffer is written back to its array only after the last point, so between two points it keeps what the
    body left: the least squared distance seen so far.  At the last point that running least value is replaced
    by its square root. -/

/-- The contents of the output buffer after the body at point `n`: at point 0 the first block's least squared
    distance; afterwards the smaller of what point `n - 1` left and the block's least squared distance — and, at the
    last point (49), the square root of that. -/
def carried (c : Dev nD) : (n : ℕ) → n < cfg0.N → Vec F S1x1 .f32
  | 0, hn => k0_pay1 (iblk m c 1 ⟨0, hn⟩) (iblk m c 0 ⟨0, hn⟩)
  | n + 1, hn =>
    if n + 1 = 49 then
      k0_pay3 (k0_pay2 (iblk m c 1 ⟨n + 1, hn⟩) (iblk m c 0 ⟨n + 1, hn⟩) (carried c n (Nat.lt_of_succ_lt hn)))
    else
      k0_pay2 (iblk m c 1 ⟨n + 1, hn⟩) (iblk m c 0 ⟨n + 1, hn⟩) (carried c n (Nat.lt_of_succ_lt hn))

/-- At the first point. -/
theorem carried_first (c : Dev nD) (t : Fin cfg0.N) (h0 : t.val = 0) :
    carried m c t.val t.isLt = k0_pay1 (iblk m c 1 t) (iblk m c 0 t) := by
  obtain ⟨n, hn⟩ := t
  cases n with
  | zero => rfl
  | succ n => exact absurd h0 (Nat.succ_ne_zero n)

/-- At a point that is neither the first nor the last. -/
theorem carried_middle (c : Dev nD) (t : Fin cfg0.N) (h0 : t.val ≠ 0) (h49 : t.val ≠ 49) :
    carried m c t.val t.isLt
      = k0_pay2 (iblk m c 1 t) (iblk m c 0 t) (carried m c (t.val - 1) (Nat.lt_of_le_of_lt (Nat.sub_le _ _) t.isLt)) := by
  obtain ⟨n, hn⟩ := t
  cases n with
  | zero => exact absurd rfl h0
  | succ n => exact (if_neg h49).trans rfl

/-- At the last point. -/
theorem carried_last (c : Dev nD) (t : Fin cfg0.N) (h0 : t.val ≠ 0) (h49 : t.val = 49) :
    carried m c t.val t.isLt
      = k0_pay3 (k0_pay2 (iblk m c 1 t) (iblk m c 0 t) (carried m c (t.val - 1) (Nat.lt_of_le_of_lt (Nat.sub_le _ _) t.isLt))) := by
  obtain ⟨n, hn⟩ := t
  cases n with
  | zero => exact absurd rfl h0
  | succ n => exact (if_pos h49).trans rfl

/-! ## The proof data of the pipeline -/

/-- On core `c`: the arrays as the region finds them; after the body at point `t` the two inputs' buffers at their
    blocks and the output's at `carried`; the invariant is the rest of the core's memory, untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => carried m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_query (c : Dev nD) (t : Fin cfg0.N) : (dats m 0 c).after 0 t = iblk m c 0 t := by dsimp only [dats]
theorem after_corpus (c : Dev nD) (t : Fin cfg0.N) : (dats m 0 c).after 1 t = iblk m c 1 t := by dsimp only [dats]
theorem after_out (c : Dev nD) (t : Fin cfg0.N) : (dats m 0 c).after 2 t = carried m c t.val t.isLt := by dsimp only [dats]

/-- Each input's buffer holds its block when the body starts, fetched at that point or not. -/
theorem before_query (c : Dev nD) (t : Fin cfg0.N) (d) : (dats m 0 c).before 0 t d = iblk m c 0 t :=
  before0_0_of m (dats m 0 c) (A_eq m c 0) (after_query m c) t d
theorem before_corpus (c : Dev nD) (t : Fin cfg0.N) (d) : (dats m 0 c).before 1 t d = iblk m c 1 t :=
  before0_1_of m (dats m 0 c) (A_eq m c 1) (after_corpus m c) t d

/-- No window is ever idle: the inputs by the printed table, and the output because every point takes the first or
    the second conditional. -/
theorem live_query : ∀ t : Fin cfg0.N, cfg0.idle 0 (grid0.coords t) = false := by decide +kernel
theorem live_corpus : ∀ t : Fin cfg0.N, cfg0.idle 1 (grid0.coords t) = false := by decide +kernel
theorem live_out : ∀ i : grid0.Coords, cfg0.idle 2 i = false := by decide +kernel

/-- After the first point the output's buffer holds what the body left at the point before: the buffer is written
    back only after the last point, so it was not written back in between. -/
theorem before_out_later (c : Dev nD) (t : Fin cfg0.N) (h0 : t.val ≠ 0) (d) :
    (dats m 0 c).before 2 t d = carried m c (t.val - 1) (Nat.lt_of_le_of_lt (Nat.sub_le _ _) t.isLt) := by
  have hN : t.val < 50 := lt_of_lt_of_eq t.isLt (show cfg0.N = 50 from N_0)
  rw [Dat.before_out_kept _ 2 rfl t h0 (Bool.eq_false_iff.mpr fun h => by have := (flush0_2 _).mp h; dsimp only at this; omega)
    live_out (fun _ _ => rfl)]
  dsimp only [dats]

/-! ## The body obligation -/

/-- The buffers the body is called with at point `t`. -/
abbrev bufQuery (t : Fin cfg0.N) : Memref sig .tc .vmem S1x128 .f32 := win0_0.stage (cfg0.slots t 0)
abbrev bufCorpus (t : Fin cfg0.N) : Memref sig .tc .vmem S2000x128 .f32 := win0_1.stage (cfg0.slots t 1)
abbrev bufOut (t : Fin cfg0.N) : Memref sig .tc .vmem S1x1 .f32 := win0_2.stage (cfg0.slots t 2)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (bufQuery t) fullShare ((dats m 0 c).before 0 t d))
    ∗ (∃ d, owns (c : Thread nD τ) (bufCorpus t) fullShare ((dats m 0 c).before 1 t d))
    ∗ (∃ d, owns (c : Thread nD τ) (bufOut t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1200000 in
/-- The body at any point, by the kind of point it is: the inputs' buffers hold their blocks; at the first point the
    output's buffer holds anything, later what the point before left; the matching run of the body applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_query, before_corpus]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (bufQuery t) fullShare ((dats m 0 c).after 0 t) from by
      unfold Dat.leavesExact; rw [live_query t], after_query]
  rw [show (dats m 0 c).leavesExact 1 t = owns (c : Thread nD τ) (bufCorpus t) fullShare ((dats m 0 c).after 1 t) from by
      unfold Dat.leavesExact; rw [live_corpus t], after_corpus]
  rw [show (dats m 0 c).leavesExact 2 t = owns (c : Thread nD τ) (bufOut t) fullShare ((dats m 0 c).after 2 t) from by
      unfold Dat.leavesExact; rw [live_out (grid0.coords t)], after_out]
  have hN : t.val < 50 := lt_of_lt_of_eq t.isLt (show cfg0.N = 50 from N_0)
  by_cases h0 : t.val = 0
  · rw [carried_first m c t h0]
    iintro ⟨HΦ, Ho, ⟨%d0, H0⟩, ⟨%d1, H1⟩, ⟨%d2, H2⟩⟩
    iapply (point_first c (grid0.coords t) _ _ _ _ _ _ ((isFirst_iff t).mpr h0)
      (fun h => absurd ((isLater_iff t).mp h) (by omega)) (fun h => absurd ((isLast_iff t).mp h) (by omega))
      (iblk m c 0 t) (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before_out_later m c t h0]
    by_cases h49 : t.val = 49
    · rw [carried_last m c t h0 h49]
      iintro ⟨HΦ, Ho, ⟨%d0, H0⟩, ⟨%d1, H1⟩, ⟨%d2, H2⟩⟩
      iapply (point_last c (grid0.coords t) _ _ _ _ _ _ (fun h => h0 ((isFirst_iff t).mp h))
        ((isLater_iff t).mpr (by omega)) ((isLast_iff t).mpr h49)
        (iblk m c 0 t) (iblk m c 1 t) (carried m c (t.val - 1) (Nat.lt_of_le_of_lt (Nat.sub_le _ _) t.isLt)) Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · rw [carried_middle m c t h0 h49]
      iintro ⟨HΦ, Ho, ⟨%d0, H0⟩, ⟨%d1, H1⟩, ⟨%d2, H2⟩⟩
      iapply (point_middle c (grid0.coords t) _ _ _ _ _ _ (fun h => h0 ((isFirst_iff t).mp h))
        ((isLater_iff t).mpr (by omega)) (fun h => h49 ((isLast_iff t).mp h))
        (iblk m c 0 t) (iblk m c 1 t) (carried m c (t.val - 1) (Nat.lt_of_le_of_lt (Nat.sub_le _ _) t.isLt)) Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; every array of the pipeline then holds what the write-backs
    of the proof data leave in it, and every other buffer what the host lines after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- So the program runs and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Carry

end
-- ==== Proof.KernelIdealPoint.lean ====
import proofs.«179066_g23733989277861_cont_8to1_329_4_alg».proof.Proof.Gen.KernelIdeal.Frame
import proofs.«179066_g23733989277861_cont_8to1_329_4_alg».proof.Proof.Gen.KernelIdeal.Skeleton
import Idealize.ShloMosaic.Lib.Pipeline.Value

set_option maxRecDepth 16384

noncomputable section

namespace Cert.KernelIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! The kernel body at ONE grid point, in each of the three ways its conditionals can go, with the contents of
    the one-element output buffer NAMED.  The body first computes, from the corpus block `x1` (2000 rows) and the
    query row `x0`, the least squared distance of a row of the block to the query (`k0_pay1 x1 x0`).  Then:
    * at the first point it stores that number;
    * at a later point it stores the smaller of that number and what the buffer held (`k0_pay2 x1 x0 xo`);
    * at the last point it then reads the buffer again and stores the square root of what it reads
      (`k0_pay3 (k0_pay2 x1 x0 xo)`).
    Every store covers the whole buffer, so what the buffer holds afterwards is the last stored value. -/

/-- The three conditions of the body, at grid coordinates `i`. -/
abbrev isFirst (i : grid0.Coords) : Prop := k0_cond1 i = 1#1
abbrev isLater (i : grid0.Coords) : Prop := k0_cond2 i = 1#1
abbrev isLast (i : grid0.Coords) : Prop := k0_cond3 i = 1#1

/-- They hold at point 0 only, from point 1 on, and at point 49 only. -/
theorem isFirst_iff : ∀ t : Fin cfg0.N, isFirst (grid0.coords t) ↔ t.val = 0 :=
  (by decide +kernel : ∀ t : Fin grid0.N, isFirst (grid0.coords t) ↔ t.val = 0)
theorem isLater_iff : ∀ t : Fin cfg0.N, isLater (grid0.coords t) ↔ 1 ≤ t.val :=
  (by decide +kernel : ∀ t : Fin grid0.N, isLater (grid0.coords t) ↔ 1 ≤ t.val)
theorem isLast_iff : ∀ t : Fin cfg0.N, isLast (grid0.coords t) ↔ t.val = 49 :=
  (by decide +kernel : ∀ t : Fin grid0.N, isLast (grid0.coords t) ↔ t.val = 49)

/-- The offsets of every load and store of the body are zero: each goes through its buffer's whole rectangle. -/
theorem offsets_zero : (![0, 0] : Fin 2 → Nat) = fun _ => 0 := funext fun a => by fin_cases a <;> rfl

set_option maxHeartbeats 1000000 in
/-- THE FIRST POINT.  Only the first conditional is taken: the buffer, whatever it held, ends at the block's least
    squared distance. -/
theorem point_first (c : Dev nD) (i : grid0.Coords) (arg1 : Memref sig .tc .vmem S1x128 .f32) (harg1 : arg1.IsWhole) (arg2 : Memref sig .tc .vmem S2000x128 .f32) (harg2 : arg2.IsWhole) (arg3 : Memref sig .tc .vmem S1x1 .f32) (harg3 : arg3.IsWhole) (hc0 : isFirst i) (hc1 : ¬isLater i) (hc2 : ¬isLast i)
    (x0 : Vec F S1x128 .f32) (x1 : Vec F S2000x128 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ owns (c : Thread nD τ) arg3 fullShare (k0_pay1 x1 x0)) -∗ K ⟨⟩))
          ⊢ wp frame (wpE (defs₀ (F := F)) Variants.none c none) E (cc0__body i arg1 harg1 arg2 harg2 arg3 harg3) K := by
    intro E K
    simp only [cc0__body_eq_skeleton]; unfold cc0__body_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    rw [View.read_writes_eq_canon _ _ _ (fun y => ⟨_, List.mem_cons_self, View.mem_set_unit_zero offsets_zero inb_S1x1_S1x1_0_0 y⟩),
      View.canon_cons_unit_zero offsets_zero]
    simp only [View.readAt_eq_ld, harg1.read_unread, harg2.read_unread,
      View.ld_unit_zero (S := S1x128) offsets_zero, View.ld_unit_zero (S := S2000x128) offsets_zero]

set_option maxHeartbeats 1000000 in
/-- A MIDDLE POINT.  Only the second conditional is taken: the buffer, holding `xo`, ends at the smaller of `xo` and the
    block's least squared distance. -/
theorem point_middle (c : Dev nD) (i : grid0.Coords) (arg1 : Memref sig .tc .vmem S1x128 .f32) (harg1 : arg1.IsWhole) (arg2 : Memref sig .tc .vmem S2000x128 .f32) (harg2 : arg2.IsWhole) (arg3 : Memref sig .tc .vmem S1x1 .f32) (harg3 : arg3.IsWhole) (hc0 : ¬isFirst i) (hc1 : isLater i) (hc2 : ¬isLast i)
    (x0 : Vec F S1x128 .f32) (x1 : Vec F S2000x128 .f32) (xo : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1 ∗ owns (c : Thread nD τ) arg3 fullShare (k0_pay2 x1 x0 xo)) -∗ K ⟨⟩))
          ⊢ wp frame (wpE (defs₀ (F := F)) Variants.none c none) E (cc0__body i arg1 harg1 arg2 harg2 arg3 harg3) K := by
    intro E K
    simp only [cc0__body_eq_skeleton]; unfold cc0__body_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    sl_unfold_words
    rw [View.read_writes_eq_canon _ _ _ (fun y => ⟨_, List.mem_cons_self, View.mem_set_unit_zero offsets_zero inb_S1x1_S1x1_0_0 y⟩),
      View.canon_cons_unit_zero offsets_zero]
    simp only [View.readAt_eq_ld, harg1.read_unread, harg2.read_unread, harg3.read_unread,
      View.ld_unit_zero (S := S1x128) offsets_zero, View.ld_unit_zero (S := S2000x128) offsets_zero,
      View.ld_unit_zero (S := S1x1) offsets_zero]

set_option maxHeartbeats 1000000 in
/-- THE LAST POINT.  The second and the third conditionals are taken: the buffer, holding `xo`, first takes the smaller of
    `xo` and the block's least squared distance, and is then replaced by the square root of what it holds. -/
theorem point_last (c : Dev nD) (i : grid0.Coords) (arg1 : Memref sig .tc .vmem S1x128 .f32) (harg1 : arg1.IsWhole) (arg2 : Memref sig .tc .vmem S2000x128 .f32) (harg2 : arg2.IsWhole) (arg3 : Memref sig .tc .vmem S1x1 .f32) (harg3 : arg3.IsWhole) (hc0 : ¬isFirst i) (hc1 : isLater i) (hc2 : isLast i)
    (x0 : Vec F S1x128 .f32) (x1 : Vec F S2000x128 .f32) (xo : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare xo
            ∗ (iprop(owns (c : Thread nD τ) arg1 fullShare x0 ∗ owns (c : Thread nD τ) arg2 fullShare x1 ∗ owns (c : Thread nD τ) arg3 fullShare (k0_pay3 (k0_pay2 x1 x0 xo))) -∗ K ⟨⟩))
          ⊢ wp frame (wpE (defs₀ (F := F)) Variants.none c none) E (cc0__body i arg1 harg1 arg2 harg2 arg3 harg3) K := by
    intro E K
    simp only [cc0__body_eq_skeleton]; unfold cc0__body_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    iexists _; isplitr; swap; · iexact H2
    ipureintro
    sl_unfold_words
    rw [View.read_writes_eq_canon _ _ _ (fun y => ⟨_, List.mem_cons_self, View.mem_set_unit_zero offsets_zero inb_S1x1_S1x1_0_0 y⟩),
      View.canon_cons_unit_zero offsets_zero]
    simp only [View.readAt_eq_ld, harg1.read_unread, harg2.read_unread, harg3.read_unread,
      View.ld_unit_zero (S := S1x128) offsets_zero, View.ld_unit_zero (S := S2000x128) offsets_zero,
      View.ld_unit_zero (S := S1x1) offsets_zero, View.readCov_unit_zero (S := S1x1) _ offsets_zero]

end Cert.KernelIdeal.Point

end
-- ==== Proof.KernelIdealCarry.lean ====
import proofs.«179066_g23733989277861_cont_8to1_329_4_alg».proof.Proof.KernelIdealPoint

set_option maxRecDepth 16384

noncomputable section

namespace Cert.KernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Point

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What the one-element output buffer holds from point to point, and the run of the whole program over it.
    The buffer is written back to its array only after the last point, so between two points it keeps what the
    body left: the least squared distance seen so far.  At the last point that running least value is replaced
    by its square root. -/

/-- The contents of the output buffer after the body at point `n`: at point 0 the first block's least squared
    distance; afterwards the smaller of what point `n - 1` left and the block's least squared distance — and, at the
    last point (49), the square root of that. -/
def carried (c : Dev nD) : (n : ℕ) → n < cfg0.N → Vec F S1x1 .f32
  | 0, hn => k0_pay1 (iblk m c 1 ⟨0, hn⟩) (iblk m c 0 ⟨0, hn⟩)
  | n + 1, hn =>
    if n + 1 = 49 then
      k0_pay3 (k0_pay2 (iblk m c 1 ⟨n + 1, hn⟩) (iblk m c 0 ⟨n + 1, hn⟩) (carried c n (Nat.lt_of_succ_lt hn)))
    else
      k0_pay2 (iblk m c 1 ⟨n + 1, hn⟩) (iblk m c 0 ⟨n + 1, hn⟩) (carried c n (Nat.lt_of_succ_lt hn))

/-- At the first point. -/
theorem carried_first (c : Dev nD) (t : Fin cfg0.N) (h0 : t.val = 0) :
    carried m c t.val t.isLt = k0_pay1 (iblk m c 1 t) (iblk m c 0 t) := by
  obtain ⟨n, hn⟩ := t
  cases n with
  | zero => rfl
  | succ n => exact absurd h0 (Nat.succ_ne_zero n)

/-- At a point that is neither the first nor the last. -/
theorem carried_middle (c : Dev nD) (t : Fin cfg0.N) (h0 : t.val ≠ 0) (h49 : t.val ≠ 49) :
    carried m c t.val t.isLt
      = k0_pay2 (iblk m c 1 t) (iblk m c 0 t) (carried m c (t.val - 1) (Nat.lt_of_le_of_lt (Nat.sub_le _ _) t.isLt)) := by
  obtain ⟨n, hn⟩ := t
  cases n with
  | zero => exact absurd rfl h0
  | succ n => exact (if_neg h49).trans rfl

/-- At the last point. -/
theorem carried_last (c : Dev nD) (t : Fin cfg0.N) (h0 : t.val ≠ 0) (h49 : t.val = 49) :
    carried m c t.val t.isLt
      = k0_pay3 (k0_pay2 (iblk m c 1 t) (iblk m c 0 t) (carried m c (t.val - 1) (Nat.lt_of_le_of_lt (Nat.sub_le _ _) t.isLt))) := by
  obtain ⟨n, hn⟩ := t
  cases n with
  | zero => exact absurd rfl h0
  | succ n => exact (if_pos h49).trans rfl

/-! ## The proof data of the pipeline -/

/-- On core `c`: the arrays as the region finds them; after the body at point `t` the two inputs' buffers at their
    blocks and the output's at `carried`; the invariant is the rest of the core's memory, untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => carried m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_query (c : Dev nD) (t : Fin cfg0.N) : (dats m 0 c).after 0 t = iblk m c 0 t := by dsimp only [dats]
theorem after_corpus (c : Dev nD) (t : Fin cfg0.N) : (dats m 0 c).after 1 t = iblk m c 1 t := by dsimp only [dats]
theorem after_out (c : Dev nD) (t : Fin cfg0.N) : (dats m 0 c).after 2 t = carried m c t.val t.isLt := by dsimp only [dats]

/-- Each input's buffer holds its block when the body starts, fetched at that point or not. -/
theorem before_query (c : Dev nD) (t : Fin cfg0.N) (d) : (dats m 0 c).before 0 t d = iblk m c 0 t :=
  before0_0_of m (dats m 0 c) (A_eq m c 0) (after_query m c) t d
theorem before_corpus (c : Dev nD) (t : Fin cfg0.N) (d) : (dats m 0 c).before 1 t d = iblk m c 1 t :=
  before0_1_of m (dats m 0 c) (A_eq m c 1) (after_corpus m c) t d

/-- No window is ever idle: the inputs by the printed table, and the output because every point takes the first or
    the second conditional. -/
theorem live_query : ∀ t : Fin cfg0.N, cfg0.idle 0 (grid0.coords t) = false := by decide +kernel
theorem live_corpus : ∀ t : Fin cfg0.N, cfg0.idle 1 (grid0.coords t) = false := by decide +kernel
theorem live_out : ∀ i : grid0.Coords, cfg0.idle 2 i = false := by decide +kernel

/-- After the first point the output's buffer holds what the body left at the point before: the buffer is written
    back only after the last point, so it was not written back in between. -/
theorem before_out_later (c : Dev nD) (t : Fin cfg0.N) (h0 : t.val ≠ 0) (d) :
    (dats m 0 c).before 2 t d = carried m c (t.val - 1) (Nat.lt_of_le_of_lt (Nat.sub_le _ _) t.isLt) := by
  have hN : t.val < 50 := lt_of_lt_of_eq t.isLt (show cfg0.N = 50 from N_0)
  rw [Dat.before_out_kept _ 2 rfl t h0 (Bool.eq_false_iff.mpr fun h => by have := (flush0_2 _).mp h; dsimp only at this; omega)
    live_out (fun _ _ => rfl)]
  dsimp only [dats]

/-! ## The body obligation -/

/-- The buffers the body is called with at point `t`. -/
abbrev bufQuery (t : Fin cfg0.N) : Memref sig .tc .vmem S1x128 .f32 := win0_0.stage (cfg0.slots t 0)
abbrev bufCorpus (t : Fin cfg0.N) : Memref sig .tc .vmem S2000x128 .f32 := win0_1.stage (cfg0.slots t 1)
abbrev bufOut (t : Fin cfg0.N) : Memref sig .tc .vmem S1x1 .f32 := win0_2.stage (cfg0.slots t 2)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (bufQuery t) fullShare ((dats m 0 c).before 0 t d))
    ∗ (∃ d, owns (c : Thread nD τ) (bufCorpus t) fullShare ((dats m 0 c).before 1 t d))
    ∗ (∃ d, owns (c : Thread nD τ) (bufOut t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 1200000 in
/-- The body at any point, by the kind of point it is: the inputs' buffers hold their blocks; at the first point the
    output's buffer holds anything, later what the point before left; the matching run of the body applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_query, before_corpus]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (bufQuery t) fullShare ((dats m 0 c).after 0 t) from by
      unfold Dat.leavesExact; rw [live_query t], after_query]
  rw [show (dats m 0 c).leavesExact 1 t = owns (c : Thread nD τ) (bufCorpus t) fullShare ((dats m 0 c).after 1 t) from by
      unfold Dat.leavesExact; rw [live_corpus t], after_corpus]
  rw [show (dats m 0 c).leavesExact 2 t = owns (c : Thread nD τ) (bufOut t) fullShare ((dats m 0 c).after 2 t) from by
      unfold Dat.leavesExact; rw [live_out (grid0.coords t)], after_out]
  have hN : t.val < 50 := lt_of_lt_of_eq t.isLt (show cfg0.N = 50 from N_0)
  by_cases h0 : t.val = 0
  · rw [carried_first m c t h0]
    iintro ⟨HΦ, Ho, ⟨%d0, H0⟩, ⟨%d1, H1⟩, ⟨%d2, H2⟩⟩
    iapply (point_first c (grid0.coords t) _ _ _ _ _ _ ((isFirst_iff t).mpr h0)
      (fun h => absurd ((isLater_iff t).mp h) (by omega)) (fun h => absurd ((isLast_iff t).mp h) (by omega))
      (iblk m c 0 t) (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · simp only [before_out_later m c t h0]
    by_cases h49 : t.val = 49
    · rw [carried_last m c t h0 h49]
      iintro ⟨HΦ, Ho, ⟨%d0, H0⟩, ⟨%d1, H1⟩, ⟨%d2, H2⟩⟩
      iapply (point_last c (grid0.coords t) _ _ _ _ _ _ (fun h => h0 ((isFirst_iff t).mp h))
        ((isLater_iff t).mpr (by omega)) ((isLast_iff t).mpr h49)
        (iblk m c 0 t) (iblk m c 1 t) (carried m c (t.val - 1) (Nat.lt_of_le_of_lt (Nat.sub_le _ _) t.isLt)) Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · rw [carried_middle m c t h0 h49]
      iintro ⟨HΦ, Ho, ⟨%d0, H0⟩, ⟨%d1, H1⟩, ⟨%d2, H2⟩⟩
      iapply (point_middle c (grid0.coords t) _ _ _ _ _ _ (fun h => h0 ((isFirst_iff t).mp h))
        ((isLater_iff t).mpr (by omega)) (fun h => h49 ((isLast_iff t).mp h))
        (iblk m c 0 t) (iblk m c 1 t) (carried m c (t.val - 1) (Nat.lt_of_le_of_lt (Nat.sub_le _ _) t.isLt)) Set.univ _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates; every array of the pipeline then holds what the write-backs
    of the proof data leave in it, and every other buffer what the host lines after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- So the program runs and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Carry

end
-- ==== Proof.LeastRoot.lean ====
import Idealize.ShloMosaic.PureOps.Ideal
import Mathlib.Data.EReal.Operations
import Mathlib.Data.Finset.Fold
import Mathlib.Order.Monotone.Basic

/-!
# The least distance is the root of the least squared distance

The pure mathematics behind the certificate, free of any program.

* `sqrt_mono`: the square root of the extended reals — `⊥` below zero, the real root on `[0, ∞)`, `⊤` at `⊤` — is
  monotone on ALL extended reals, so it commutes with a minimum, and with the minimum over a finite family started
  from `⊤` (`sqrt_fold_min`).
* `sub_mul_self_comm`: `(x - y)² = (y - x)²` for all extended reals, the infinities included (for `x = y` the two
  sides are one term; otherwise `y - x` is `-(x - y)` and the signs cancel).
* `LeastBelow d b v`: `v` is the greatest lower bound of `d r` over the rows `r` below `b`, stated by its universal
  property.  It starts at `⊤` over no row (`leastBelow_zero`), passes from `b` rows to `b + B` rows by taking the
  minimum with the least value of the next `B` rows (`LeastBelow.step`), and over all rows is the minimum of the whole
  family (`LeastBelow.eq_fold`).
-/

namespace Cert.LeastRoot

open Idealize.ShloMosaic

/-- The ideal square root is monotone on all extended reals. -/
theorem sqrt_mono : Monotone Ideal.sqrt := by
  intro a b hab
  induction a using EReal.rec with
  | bot => exact bot_le
  | top =>
    obtain rfl : b = ⊤ := top_le_iff.mp hab
    exact le_rfl
  | coe x =>
    induction b using EReal.rec with
    | bot => exact absurd hab (by simp)
    | top => exact le_top
    | coe y =>
      have hxy : x ≤ y := EReal.coe_le_coe_iff.mp hab
      rw [Ideal.sqrt_coe, Ideal.sqrt_coe]
      by_cases hx : x < 0
      · rw [if_pos hx]; exact bot_le
      · have hy : ¬ y < 0 := fun hy => hx (lt_of_le_of_lt hxy hy)
        rw [if_neg hx, if_neg hy]
        exact EReal.coe_le_coe_iff.mpr (Real.sqrt_le_sqrt hxy)

/-- So it commutes with a minimum, -/
theorem sqrt_min (a b : EReal) : Ideal.sqrt (min a b) = min (Ideal.sqrt a) (Ideal.sqrt b) :=
  sqrt_mono.map_min

/-- and with the minimum of a finite family started from `⊤`. -/
theorem sqrt_fold_min {ι : Type} (s : Finset ι) (f : ι → EReal) :
    Ideal.sqrt (s.fold min ⊤ f) = s.fold min ⊤ (fun i => Ideal.sqrt (f i)) := by
  classical
  induction s using Finset.induction_on with
  | empty => simp only [Finset.fold_empty]; exact Ideal.sqrt_top
  | insert a s ha ih => rw [Finset.fold_insert ha, Finset.fold_insert ha, sqrt_min, ih]

/-- A squared difference does not depend on the order of the two terms, on all extended reals. -/
theorem sub_mul_self_comm (x y : EReal) : (x - y) * (x - y) = (y - x) * (y - x) := by
  by_cases hxy : x = y
  · subst hxy; rfl
  · have h : y - x = -(x - y) := by
      have hb : x ≠ ⊥ ∨ y ≠ ⊥ := by
        by_cases hx : x = ⊥
        · exact Or.inr fun hy => hxy (hx.trans hy.symm)
        · exact Or.inl hx
      have ht : x ≠ ⊤ ∨ y ≠ ⊤ := by
        by_cases hx : x = ⊤
        · exact Or.inr fun hy => hxy (hx.trans hy.symm)
        · exact Or.inl hx
      rw [EReal.neg_sub hb ht, sub_eq_add_neg, add_comm]
    rw [h, neg_mul_neg]

/-- `v` is the greatest lower bound of the values `d r` over the rows `r` below `b`. -/
def LeastBelow {N : ℕ} (d : Fin N → EReal) (b : ℕ) (v : EReal) : Prop :=
  ∀ z : EReal, z ≤ v ↔ ∀ r : Fin N, r.val < b → z ≤ d r

/-- Over no row it is `⊤`. -/
theorem leastBelow_zero {N : ℕ} (d : Fin N → EReal) : LeastBelow d 0 ⊤ :=
  fun _ => ⟨fun _ r hr => absurd hr (Nat.not_lt_zero _), fun _ => le_top⟩

/-- From `b` rows to `b + B` rows: the minimum with the least of the `B` values `g k = d (b + k)`. -/
theorem LeastBelow.step {N : ℕ} {d : Fin N → EReal} {b : ℕ} {v : EReal} (h : LeastBelow d b v) (B : ℕ) (hN : b + B ≤ N)
    (g : Fin B → EReal) (hg : ∀ (k : Fin B) (r : Fin N), r.val = b + k.val → g k = d r) :
    LeastBelow d (b + B) (min v (Finset.univ.fold min ⊤ g)) := by
  intro z
  rw [le_min_iff, h z, Finset.le_fold_min]
  constructor
  · rintro ⟨h1, -, h2⟩ r hr
    by_cases hrb : r.val < b
    · exact h1 r hrb
    · have := h2 ⟨r.val - b, by omega⟩ (Finset.mem_univ _)
      rwa [hg ⟨r.val - b, by omega⟩ r (by show r.val = b + (r.val - b); omega)] at this
  · intro hall
    refine ⟨fun r hr => hall r (by omega), le_top, fun k _ => ?_⟩
    rw [hg k ⟨b + k.val, by have := k.isLt; omega⟩ rfl]
    exact hall _ (by show b + k.val < b + B; have := k.isLt; omega)

/-- Over all the rows it is the minimum of the family. -/
theorem LeastBelow.eq_fold {N : ℕ} {d : Fin N → EReal} {v : EReal} (h : LeastBelow d N v) :
    v = Finset.univ.fold min ⊤ d :=
  le_antisymm
    ((Finset.le_fold_min _).mpr ⟨le_top, fun r _ => (h v).mp le_rfl r r.isLt⟩)
    ((h _).mpr fun r _ => (Finset.fold_min_le _).mpr (Or.inr ⟨r, Finset.mem_univ _, le_rfl⟩))

end Cert.LeastRoot
-- ==== Proof.LibMinimumSingle.lean ====
import Idealize.ShloMosaic.PureOps.Ideal.Laws

/-!
# A minimum over one axis, read at an index

A general lemma, for any shapes: at the ideal values a `vector.multi_reduction <minimumf>` over ONE axis is, at each
result index `j`, the minimum — started from the accumulator's value — of the source over that axis's coordinates, the
other coordinates those of `j` (`Shape.Reduces.lift`: the result index with the coordinate inserted on the reduced
axis).  The order in which the source is visited does not matter because `min` commutes and associates.  It is the
companion, for a minimum, of the library's statement for a maximum.
-/

namespace Idealize.ShloMosaic.Ideal

variable {φ : FTy}

/-- A float `vector.multi_reduction <minimumf>` over one axis, read at `Ideal`: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.KernelIdealValue.lean ====
import proofs.«179066_g23733989277861_cont_8to1_329_4_alg».proof.Proof.KernelIdealCarry
import proofs.«179066_g23733989277861_cont_8to1_329_4_alg».proof.Proof.LeastRoot
import proofs.«179066_g23733989277861_cont_8to1_329_4_alg».proof.Proof.LibMinimumSingle
import Idealize.ShloMosaic.Lib.ValueIdx
import Idealize.ShloMosaic.Lib.ValueLayout
import Idealize.ShloMosaic.Lib.Pipeline.Value
import Idealize.ShloMosaic.Lib.StableHlo.Run

/-!
# What the idealized kernel computes

At the ideal values the kernel's result is the square root of the least, over the 100000 corpus rows `r`, of the squared
distance `∑ j, (corpus r j - query j)²`.

* One grid point handles 2000 consecutive rows.  Its stored values read, at the buffer's one index: the least squared
  distance of the block's rows (`pay1_apply`), the smaller of that and the buffer's previous value (`pay2_apply`), the
  square root (`pay3_apply`).
* Row `k` of point `t`'s corpus block is row `2000 t + k` of the corpus, and the query block is the query
  (`corpusBlk_apply`, `queryBlk_apply`).
* So after point `n < 49` the buffer holds the greatest lower bound of the squared distances of the first
  `2000 (n + 1)` rows (`carried_least`, by induction on the point), and after point 49 the square root of the least
  over all rows (`carried_final`).
* Only the last point writes the buffer back, and it fills the one-element array; the host line after the region
  reshapes that array to a scalar (`run`).
-/

set_option maxRecDepth 16384

noncomputable section

namespace Cert.KernelIdeal.LeastValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Carry Cert.LeastRoot

/-! ## The body's stored values at the ideal instance -/

/-- The squared distance of row `k` of a corpus block `x1` to the query row `x0`. -/
def rowSq (x0 : Vec Ideal S1x128 .f32) (x1 : Vec Ideal S2000x128 .f32) (k : Fin 2000) : EReal :=
  ∑ j : Fin 128, (x1 (ix2 k j) - x0 (ix2 (0 : Fin 1) j)) * (x1 (ix2 k j) - x0 (ix2 (0 : Fin 1) j))

/-- The word the minimum starts from is `+∞`. -/
theorem infinity_word : Ideal.ofBits .f32 0x7F800000#32 = ⊤ := by simp [Ideal.ofBits, Ideal.ieee]

/-- A one-by-one shape has one index. -/
theorem only_index (y : S1x1.Idx) : y = ix2 (0 : Fin 1) (0 : Fin 1) :=
  funext fun a => Fin.ext (by
    match a with
    | ⟨0, hlt⟩ => have h : (y ⟨0, hlt⟩).val < 1 := (y ⟨0, hlt⟩).isLt; show (y ⟨0, hlt⟩).val = 0; omega
    | ⟨1, hlt⟩ => have h : (y ⟨1, hlt⟩).val < 1 := (y ⟨1, hlt⟩).isLt; show (y ⟨1, hlt⟩).val = 0; omega)

/-- The sums along the rows of a 2000 by 128 block. -/
theorem rowSum_apply (src : FVec Ideal S2000x128 .f32) (k : Fin 2000) :
    multiReduction .add [1] S2000 src 0x00000000#32 reduces_S2000x128_S2000 (.inl rfl) rfl (ix1 k)
      = ∑ j : Fin 128, src (ix2 k j) := by
  refine (Ideal.multiReduction_add_single src 0x00000000#32 reduces_S2000x128_S2000 (.inl rfl) rfl (ix1 k)).trans ?_
  exact Finset.sum_congr rfl fun j _ => congrArg src (funext fun a => Fin.ext (by
    match a with | ⟨0, _⟩ => rfl | ⟨1, _⟩ => rfl))

/-- The minimum along a row of 2000, started from `+∞`. -/
theorem rowMin_apply (src : FVec Ideal S1x2000 .f32) :
    multiReduction .minimumf [1] S1 src 0x7F800000#32 reduces_S1x2000_S1 (.inl rfl) rfl (ix1 (0 : Fin 1))
      = Finset.univ.fold min ⊤ (fun k : Fin 2000 => src (ix2 (0 : Fin 1) k)) := by
  refine (Ideal.multiReduction_minimumf_single src 0x7F800000#32 reduces_S1x2000_S1 (.inl rfl) rfl (ix1 (0 : Fin 1))).trans ?_
  rw [Ideal.ofBits_def, infinity_word]
  exact congrArg (fun f => Finset.univ.fold min ⊤ f) (funext fun k => congrArg src (funext fun a => Fin.ext (by
    match a with | ⟨0, _⟩ => rfl | ⟨1, _⟩ => rfl)))

/-- THE FIRST STORED VALUE: the least squared distance of the block's rows to the query. -/
theorem pay1_apply (x0 : Vec Ideal S1x128 .f32) (x1 : Vec Ideal S2000x128 .f32) (y : S1x1.Idx) :
    k0_pay1 (F := Ideal) x1 x0 y = Finset.univ.fold min ⊤ (rowSq x0 x1) := by
  unfold k0_pay1
  dsimp only
  rw [broadcast_apply]
  unfold extractAt
  refine (congrArg _ (only_index _)).trans ?_
  rw [shapeCast_a_1a_apply, rowMin_apply]
  refine congrArg (fun f => Finset.univ.fold min ⊤ f) (funext fun k => ?_)
  rw [shapeCast_a_1a_apply, rowSum_apply]
  unfold rowSq
  refine Finset.sum_congr rfl fun j _ => ?_
  rw [mulf_apply, subf_apply, broadcastTo_1b_ab_apply, shapeCast_self]

/-- THE SECOND: the smaller of the buffer's previous value and the first. -/
theorem pay2_apply (x0 : Vec Ideal S1x128 .f32) (x1 : Vec Ideal S2000x128 .f32) (xo : Vec Ideal S1x1 .f32) (y : S1x1.Idx) :
    k0_pay2 (F := Ideal) x1 x0 xo y = min (xo y) (k0_pay1 (F := Ideal) x1 x0 y) := by
  show min (shapeCast S1x1 xo shapeCasts_S1x1_S1x1 y) (k0_pay1 (F := Ideal) x1 x0 y) = _
  rw [shapeCast_self]

/-- THE THIRD: the square root of the buffer's value. -/
theorem pay3_apply (xo : Vec Ideal S1x1 .f32) (y : S1x1.Idx) :
    k0_pay3 (F := Ideal) xo y = Ideal.sqrt (xo y) := by
  show Ideal.sqrt (shapeCast S1x1 xo shapeCasts_S1x1_S1x1 y) = _
  rw [shapeCast_self]

/-! ## The blocks are the argument arrays' -/

variable (m : (ℓ : Loc nD τ sig) → Buf (Elt Ideal) ℓ) (ρ : Dev nD → PrngReg)

/-- The two argument arrays on core `c`, and the two input blocks at point `t`, at their literal types. -/
abbrev query (c : Dev nD) : Vec Ideal S128 .f32 := m ((c : Thread nD τ).loc main_arg0)
abbrev corpus (c : Dev nD) : Vec Ideal S100000x128 .f32 := m ((c : Thread nD τ).loc main_arg1)
abbrev queryBlk (c : Dev nD) (t : Fin cfg0.N) : Vec Ideal S1x128 .f32 := iblk m c 0 t
abbrev corpusBlk (c : Dev nD) (t : Fin cfg0.N) : Vec Ideal S2000x128 .f32 := iblk m c 1 t

/-- The squared distance of corpus row `r` to the query. -/
def sqDist (c : Dev nD) (r : Fin 100000) : EReal :=
  ∑ j : Fin 128, (corpus m c (ix2 r j) - query m c (ix1 j)) * (corpus m c (ix2 r j) - query m c (ix1 j))

/-- The printed index maps over the grid: the corpus block moves down with the point, the query and the output stay. -/
theorem index_facts : ∀ t : Fin cfg0.N, win0_1.index t (0 : Fin 2) = t.val ∧ win0_1.index t (1 : Fin 2) = 0
    ∧ win0_0.index t (0 : Fin 2) = 0 ∧ win0_0.index t (1 : Fin 2) = 0
    ∧ win0_2.index t (0 : Fin 2) = 0 ∧ win0_2.index t (1 : Fin 2) = 0 :=
  (by decide +kernel : ∀ t : Fin grid0.N, _)

/-- Row `k` of point `t`'s corpus block is row `2000 t + k` of the corpus. -/
theorem corpusBlk_apply (c : Dev nD) (t : Fin cfg0.N) (k : Fin 2000) (j : Fin 128) (r : Fin 100000)
    (hr : r.val = 2000 * t.val + k.val) : corpusBlk m c t (ix2 k j) = corpus m c (ix2 r j) := by
  show V m c main_arg1 (((cfg0.win 1).blk t).view.emb (ix2 k j)) = _
  rw [V_main_arg1]
  obtain ⟨e0, e1, -⟩ := index_facts t
  refine congrArg _ (funext fun a => Fin.ext ?_)
  match a with
  | ⟨0, _⟩ => show win0_1.index t (0 : Fin 2) * 2000 + 1 * k.val = r.val; omega
  | ⟨1, _⟩ => show win0_1.index t (1 : Fin 2) * 128 + 1 * j.val = j.val; omega

/-- The query's array as the region finds it: the host line before the region has reshaped the query to one row. -/
theorem query_entry (c : Dev nD) :
    (V m c main_v0 : S1x128.Idx → EReal) = shapeCast S1x128 (query m c) shapeCasts_S128_S1x128 := by
  show StableHlo.after hostOps0 (fun b => m (c, b)) (Proc.devRef .tc main_v0) = _
  after_results
  rfl

/-- The query block is that row at every point. -/
theorem queryBlk_apply (c : Dev nD) (t : Fin cfg0.N) (j : Fin 128) :
    queryBlk m c t (ix2 (0 : Fin 1) j) = query m c (ix1 j) := by
  show V m c main_v0 (((cfg0.win 0).blk t).view.emb (ix2 (0 : Fin 1) j)) = _
  rw [query_entry]
  obtain ⟨-, -, e0, e1, -⟩ := index_facts t
  refine (congrArg _ (funext fun a => Fin.ext ?_)).trans (shapeCast_a_1a_apply (query m c) shapeCasts_S128_S1x128 (0 : Fin 1) j)
  match a with
  | ⟨0, _⟩ => show win0_0.index t (0 : Fin 2) * 1 + 1 * 0 = 0; omega
  | ⟨1, _⟩ => show win0_0.index t (1 : Fin 2) * 128 + 1 * j.val = j.val; omega

/-- So the squared distances of a block's rows are the corpus's. -/
theorem rowSq_blocks (c : Dev nD) (t : Fin cfg0.N) (k : Fin 2000) (r : Fin 100000) (hr : r.val = 2000 * t.val + k.val) :
    rowSq (queryBlk m c t) (corpusBlk m c t) k = sqDist m c r := by
  unfold rowSq sqDist
  exact Finset.sum_congr rfl fun j _ => by rw [corpusBlk_apply m c t k j r hr, queryBlk_apply]

/-! ## The buffer from point to point -/

/-- After point `n`, not the last, the buffer holds the greatest lower bound of the squared distances of the first
    `2000 (n + 1)` rows. -/
theorem carried_least (c : Dev nD) (y : S1x1.Idx) : ∀ (n : ℕ) (hn : n < cfg0.N), n ≠ 49 →
    LeastBelow (sqDist m c) (2000 * (n + 1)) (carried (F := Ideal) m c n hn y)
  | 0, hn, _ => by
    have e : carried (F := Ideal) m c 0 hn y = k0_pay1 (F := Ideal) (corpusBlk m c ⟨0, hn⟩) (queryBlk m c ⟨0, hn⟩) y := rfl
    rw [e, pay1_apply]
    have h := (leastBelow_zero (sqDist m c)).step 2000 (by norm_num) (rowSq (queryBlk m c ⟨0, hn⟩) (corpusBlk m c ⟨0, hn⟩))
      (fun k r hr => rowSq_blocks m c ⟨0, hn⟩ k r (by show r.val = 2000 * 0 + k.val; omega))
    rw [min_eq_right le_top] at h
    exact h
  | n + 1, hn, h49 => by
    have hN : n + 1 < 50 := lt_of_lt_of_eq hn (show cfg0.N = 50 from N_0)
    have e : carried (F := Ideal) m c (n + 1) hn
        = k0_pay2 (F := Ideal) (corpusBlk m c ⟨n + 1, hn⟩) (queryBlk m c ⟨n + 1, hn⟩) (carried (F := Ideal) m c n (Nat.lt_of_succ_lt hn)) :=
      if_neg h49
    rw [congrFun e y, pay2_apply, pay1_apply]
    have h := (carried_least c y n (Nat.lt_of_succ_lt hn) (by omega)).step 2000 (by omega)
      (rowSq (queryBlk m c ⟨n + 1, hn⟩) (corpusBlk m c ⟨n + 1, hn⟩))
      (fun k r hr => rowSq_blocks m c ⟨n + 1, hn⟩ k r (by show r.val = 2000 * (n + 1) + k.val; omega))
    rw [show 2000 * (n + 1 + 1) = 2000 * (n + 1) + 2000 from by ring]
    exact h

/-- After the last point it holds the square root of the least squared distance over all rows. -/
theorem carried_final (c : Dev nD) (y : S1x1.Idx) (h49 : 49 < cfg0.N) :
    carried (F := Ideal) m c 49 h49 y = Ideal.sqrt (Finset.univ.fold min ⊤ (sqDist m c)) := by
  have e : carried (F := Ideal) m c 49 h49
      = k0_pay3 (F := Ideal) (k0_pay2 (F := Ideal) (corpusBlk m c ⟨49, h49⟩) (queryBlk m c ⟨49, h49⟩) (carried (F := Ideal) m c 48 (Nat.lt_of_succ_lt h49))) :=
    if_pos rfl
  rw [congrFun e y, pay3_apply, pay2_apply, pay1_apply]
  have h : LeastBelow (sqDist m c) 100000 _ := (carried_least m c y 48 (Nat.lt_of_succ_lt h49) (by decide)).step 2000 (by norm_num)
    (rowSq (queryBlk m c ⟨49, h49⟩) (corpusBlk m c ⟨49, h49⟩))
    (fun k r hr => rowSq_blocks m c ⟨49, h49⟩ k r (by show r.val = 2000 * 49 + k.val; omega))
  rw [h.eq_fold]

/-- The buffer's contents depend on the point's number only. -/
theorem carried_congr (c : Dev nD) {n n' : ℕ} (h : n = n') (hn : n < cfg0.N) (hn' : n' < cfg0.N) :
    carried (F := Ideal) m c n hn = carried (F := Ideal) m c n' hn' := by
  subst h; rfl

/-- A one-by-one array that holds `v` reshapes to the scalar `v`. -/
theorem reshape_const (v : EReal) (i : S_.Idx) : shapeCast S_ (fun _ : S1x1.Idx => v) shapeCasts_S1x1_S_ i = v := rfl

/-! ## The array after the run, and the result -/

/-- The kernel's result on core `c`. -/
def result (c : Dev nD) : EReal := Ideal.sqrt (Finset.univ.fold min ⊤ (sqDist m c))

/-- Its definition, as an equation to rewrite by; elsewhere it is handled as one number, never computed. -/
theorem result_def (c : Dev nD) : result m c = Ideal.sqrt (Finset.univ.fold min ⊤ (sqDist m c)) := rfl

attribute [irreducible] result

/-- The one-element output array ends at the result: only the last point writes the buffer back, its block is the
    whole array, and the buffer then holds the result. -/
theorem out_array (c : Dev nD) : (dats (F := Ideal) m 0 c).arrAt 2 cfg0.N = fun _ => result m c := by
  have h49 : 49 < cfg0.N := by rw [show cfg0.N = 50 from N_0]; norm_num
  refine (dats (F := Ideal) m 0 c).arrAt_eq_of_cover 2 (fun _ => result m c) (fun t hf => ?_) (fun i => ?_)
  · have hN : t.val < 50 := lt_of_lt_of_eq t.isLt (show cfg0.N = 50 from N_0)
    have ht : t.val = 49 := by have := (flush0_2 t).mp hf; omega
    funext y
    show (dats (F := Ideal) m 0 c).after 2 t ((cfg0.win 2).xinj (grid0.coords t) y) = result m c
    rw [after_out, carried_congr m c ht t.isLt h49, result_def]
    exact carried_final m c _ h49
  · refine ⟨⟨49, h49⟩, (flush0_2 _).mpr rfl, ?_⟩
    show i ∈ ((View.whole main_v1).slice (win0_2.rect ⟨49, h49⟩)).set
    rw [View.set_slice_whole, Rect.mem_set_unit]
    obtain ⟨-, -, -, -, e0, e1⟩ := index_facts ⟨49, h49⟩
    intro a
    match a with
    | ⟨0, hlt⟩ =>
      have hi : (i ⟨0, hlt⟩).val < 1 := (i ⟨0, hlt⟩).isLt
      show win0_2.index ⟨49, h49⟩ (0 : Fin 2) * 1 ≤ (i ⟨0, hlt⟩).val ∧ (i ⟨0, hlt⟩).val < win0_2.index ⟨49, h49⟩ (0 : Fin 2) * 1 + 1
      omega
    | ⟨1, hlt⟩ =>
      have hi : (i ⟨1, hlt⟩).val < 1 := (i ⟨1, hlt⟩).isLt
      show win0_2.index ⟨49, h49⟩ (1 : Fin 2) * 1 ≤ (i ⟨1, hlt⟩).val ∧ (i ⟨1, hlt⟩).val < win0_2.index ⟨49, h49⟩ (1 : Fin 2) * 1 + 1
      omega

/-- The host line after the region reshapes that array to the scalar result. -/
theorem tail_result (c : Dev nD) :
    Pipeline.afterTail₀ cfgs (dats (F := Ideal) m) 0 (V0 m) [hostOps1] c main_v2 = fun _ => result m c := by
  unfold Pipeline.afterTail₀
  show StableHlo.after hostOps1 _ (Proc.devRef .tc main_v2) = _
  after_results
  have e : Pipeline.withArrays (cfgs 0).spec c (V0 m c) (fun w => (dats (F := Ideal) m 0 c).arrAt w (cfgs 0).N)
      (Proc.devRef .tc main_v1) = fun _ => result m c :=
    (Pipeline.withArrays_arr spec0 launch0.win.arr_inj c _ _ 2).trans (out_array m c)
  funext i
  show shapeCast S_ (Pipeline.withArrays (cfgs 0).spec c (V0 m c) (fun w => (dats (F := Ideal) m 0 c).arrAt w (cfgs 0).N)
      (Proc.devRef .tc main_v1)) shapeCasts_S1x1_S_ i = result m c
  rw [e]
  exact reshape_const _ i

/-! ## The run, read -/

/-- Every weakly fair execution of the idealized kernel terminates with its result buffer at `result` and its two
    argument arrays unchanged. -/
theorem run : θ_run defs (onTc (τ := τ) (main (F := Ideal))) ⟨m, fun _ => 0, ρ⟩ fun r => ∀ c : Dev nD,
      r.2.mem ((c.tc : Thread nD τ).loc main_v2) = (fun _ => result m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_result m c),
      ((h c).2 main_arg0 (Pipeline.mem_restRefs_of main_arg0 (by decide) (by decide))).trans (W_main_arg0 m (dats (F := Ideal) m) c),
      ((h c).1 1).trans (((dats (F := Ideal) m 0 c).arrAt_in 1 rfl _).trans ((A_eq m c 1).trans (V_main_arg1 m c)))⟩)
    (run_main (F := Ideal) m ρ)

end Cert.KernelIdeal.LeastValue

end
-- ==== Proof.ReferenceValue.lean ====
import proofs.«179066_g23733989277861_cont_8to1_329_4_alg».proof.Proof.Gen.ReferenceIdeal.Read
import proofs.«179066_g23733989277861_cont_8to1_329_4_alg».proof.Proof.LeastRoot
import Idealize.ShloMosaic.Lib.ValueIdx
import Idealize.ShloMosaic.PureOps.Ideal.Laws

/-!
# What the idealized reference computes

The reference takes, for every corpus row `r`, the square root of `0 + ∑ j, (query j - corpus r j)²`, and then the least
of those 100000 roots, started from `+∞`.

* `root_apply`: the stage before the final reduction, at row `r`, through the generated read-at-an-index lemmas.
* `value_eq`: the final reduction, which the generated module does not read, as the minimum over the rows (every
  index of the operand drops to the one scalar index, and the two minima bound each other).
* `value_eq_root_of_least`: the same number is the square root of the least squared distance, the differences taken
  the other way round: the square root is monotone, so the least of the roots is the root of the least, and a squared
  difference does not depend on the order of its terms.
-/

set_option maxRecDepth 16384

noncomputable section

namespace Cert.ReferenceIdeal.RefValue

open Idealize.ShloMosaic Idealize.ShloMosaic.ValueIdx
open Cert.ReferenceIdeal Cert.ReferenceIdeal.Gen Cert.ReferenceIdeal.Read Cert.LeastRoot

/-- The squared distance of the query `q` to corpus row `r`, as the reference writes it. -/
def refSq (q : Vec Ideal S128 .f32) (C : Vec Ideal S100000x128 .f32) (r : Fin 100000) : EReal :=
  ∑ j : Fin 128, (q (ix1 j) - C (ix2 r j)) * (q (ix1 j) - C (ix2 r j))

/-- The same with the differences taken the other way round, as the kernel writes it. -/
def sqDist (q : Vec Ideal S128 .f32) (C : Vec Ideal S100000x128 .f32) (r : Fin 100000) : EReal :=
  ∑ j : Fin 128, (C (ix2 r j) - q (ix1 j)) * (C (ix2 r j) - q (ix1 j))

theorem refSq_eq_sqDist (q : Vec Ideal S128 .f32) (C : Vec Ideal S100000x128 .f32) (r : Fin 100000) :
    refSq q C r = sqDist q C r :=
  Finset.sum_congr rfl fun j _ => sub_mul_self_comm _ _

/-- The word the minimum starts from is `+∞`. -/
theorem infinity_word : Ideal.ofBits .f32 0x7F800000#32 = ⊤ := by simp [Ideal.ofBits, Ideal.ieee]

/-- The stage before the final reduction, at row `r`: the root of the row's squared distance. -/
theorem root_apply (q : Vec Ideal S128 .f32) (C : Vec Ideal S100000x128 .f32) (r : Fin 100000) :
    val_main_v5 (F := Ideal) q C (ix1 r) = Ideal.sqrt (refSq q C r) := by
  rw [val_main_v5_apply, val_main_v4_apply, val_main_cst_apply, Ideal.hostUnary_sqrt_def, Ideal.ofBits_def,
    Ideal.ofBits_zero_f32, zero_add]
  unfold refSq
  refine congrArg Ideal.sqrt (Finset.sum_congr rfl fun j _ => ?_)
  rw [val_main_v3_apply, val_main_v2_apply, val_main_v1_apply, val_main_v0_apply]
  have e1 : idx_main_v0 (idx_main_v1 (idx_main_v4 (ix1 r) j)) = ix1 j :=
    funext fun a => Fin.ext (by match a with | ⟨0, _⟩ => rfl)
  have e2 : idx_main_v4 (ix1 r) j = ix2 r j :=
    funext fun a => Fin.ext (by match a with | ⟨0, _⟩ => rfl | ⟨1, _⟩ => rfl)
  rw [e1, e2]
  rfl

/-- The reference's result: the least of the rows' roots. -/
theorem value_eq (q : Vec Ideal S128 .f32) (C : Vec Ideal S100000x128 .f32) (i : S_.Idx) :
    val_main_v6 (F := Ideal) q C i = Finset.univ.fold min ⊤ (fun r : Fin 100000 => Ideal.sqrt (refSq q C r)) := by
  unfold val_main_v6
  refine (Host.reduce_eq_fold (FloatOps.minimumf (F := Ideal) (φ := .f32)) (val_main_v5 (F := Ideal) q C)
    (val_main_cst_0 (F := Ideal)) reducesTo_S100000_S_d0 h_S_ i).trans ?_
  rw [val_main_cst_0_apply, Ideal.ofBits_def, infinity_word]
  apply le_antisymm
  · refine (Finset.le_fold_min _).mpr ⟨le_top, fun r _ => (Finset.fold_min_le _).mpr
      (Or.inr ⟨ix1 r, ?_, le_of_eq (root_apply q C r)⟩)⟩
    exact Finset.mem_filter.mpr ⟨Finset.mem_univ _, funext fun b => b.elim0⟩
  · exact (Finset.le_fold_min _).mpr ⟨le_top, fun j _ => (Finset.fold_min_le _).mpr
      (Or.inr ⟨j 0, Finset.mem_univ _,
        le_of_eq ((root_apply q C (j 0)).symm.trans (congrArg (val_main_v5 (F := Ideal) q C) (eq_ix1 j).symm))⟩)⟩

/-- It is the root of the least squared distance. -/
theorem value_eq_root_of_least (q : Vec Ideal S128 .f32) (C : Vec Ideal S100000x128 .f32) (i : S_.Idx) :
    val_main_v6 (F := Ideal) q C i = Ideal.sqrt (Finset.univ.fold min ⊤ (sqDist q C)) := by
  rw [value_eq, sqrt_fold_min]
  exact congrArg (fun f => Finset.univ.fold min ⊤ f) (funext fun r => congrArg Ideal.sqrt (refSq_eq_sqDist q C r))

end Cert.ReferenceIdeal.RefValue

end
-- ==== Proof.lean ====
/-
  The nearest corpus row: `min_r ‖x - corpus_r‖₂` over 100000 rows of 128 numbers.

  The kernel walks the corpus in 50 blocks of 2000 rows.  At each block it forms every row's SQUARED distance to the query,
  takes the least of them, and keeps the least seen so far in a one-element buffer that stays on the core from block to
  block; after the last block it replaces that number by its square root, and only then is the buffer written back.  The
  reference takes the square root of every row's squared distance and then the least of the 100000 roots.

  At the ideal values both are one extended real:  `√ (min_r ∑_j (corpus_r j - x_j)²)`.
  * The kernel's side: by induction over the blocks the buffer holds the greatest lower bound of the squared distances
    of the rows seen so far; after the last block, the root of the least over all rows (Proof/KernelIdealValue.lean, over the
    proof data of Proof/KernelIdealCarry.lean and the body's three runs of Proof/KernelIdealPoint.lean).
  * The reference's side: the least of the roots is the root of the least, because the square root is monotone on all
    extended reals, and `(x - c)² = (c - x)²` for all extended reals (Proof/ReferenceValue.lean over Proof/LeastRoot.lean).
  Neither law needs the inputs to be finite, so the precondition is not used.

  The three programs run, and leave their arguments alone: the two kernels by the same proof data read for the frame (the
  word-level kernel's modules are the idealized kernel's, laid out in its namespace), the reference by its run.  The
  idealization rewrote no operation, so there is nothing to preserve.
-/
import proofs.«179066_g23733989277861_cont_8to1_329_4_alg».proof.Defs
import proofs.«179066_g23733989277861_cont_8to1_329_4_alg».proof.Proof.Gen.Kernel
import proofs.«179066_g23733989277861_cont_8to1_329_4_alg».proof.Proof.Gen.KernelIdeal
import proofs.«179066_g23733989277861_cont_8to1_329_4_alg».proof.Proof.Gen.ReferenceIdeal
import proofs.«179066_g23733989277861_cont_8to1_329_4_alg».proof.Proof.Gen.Pre_finite_inputs
import proofs.«179066_g23733989277861_cont_8to1_329_4_alg».proof.Proof.KernelCarry
import proofs.«179066_g23733989277861_cont_8to1_329_4_alg».proof.Proof.KernelIdealValue
import proofs.«179066_g23733989277861_cont_8to1_329_4_alg».proof.Proof.ReferenceValue
import Idealize.ShloMosaic.Adequacy
import Idealize.ShloMosaic.Init

noncomputable section

namespace Cert.Proof

open Idealize.ShloMosaic Idealize.SL.Sem

/-- The two idealized programs end with one result: the root of the least squared distance. -/
theorem algebraic : Cert.algebraic_KernelIdeal_ReferenceIdeal := by
  intro m ρ m' ρ' _ hagree
  refine ⟨fun c => (fun _ => Cert.KernelIdeal.LeastValue.result m c : Cert.KernelIdeal.S_.Idx → EReal),
    Cert.KernelIdeal.LeastValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v6_eq]
  funext i
  show _ = Cert.KernelIdeal.LeastValue.result m c
  rw [Cert.KernelIdeal.LeastValue.result_def]
  exact Cert.ReferenceIdeal.RefValue.value_eq_root_of_least _ _ i

theorem claim : Cert.Claim := ⟨Cert.Kernel.Gen.facts, Cert.KernelIdeal.Gen.facts, Cert.ReferenceIdeal.Gen.facts, Cert.Pre_finite_inputs.Gen.facts,
  fun m ρ _ => Cert.Kernel.Carry.frame m ρ,
  fun m ρ _ => Cert.KernelIdeal.Carry.frame m ρ,
  fun m ρ _ => (θ_run Cert.ReferenceIdeal.defs _ _).mono (fun _ h c => (h c).2) (Cert.ReferenceIdeal.Value.run (F := Ideal) m ρ),
  trivial,
  algebraic⟩

end Cert.Proof

end
